-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1022 : Shape := ⟨2, ![100000, 1022]⟩
abbrev S2x3200000 : Shape := ⟨2, ![2, 3200000]⟩
abbrev S1022x10 : Shape := ⟨2, ![1022, 10]⟩
abbrev S10 : Shape := ⟨1, ![10]⟩
abbrev S10x10 : Shape := ⟨2, ![10, 10]⟩
abbrev S10x2 : Shape := ⟨2, ![10, 2]⟩
abbrev S2 : Shape := ⟨1, ![2]⟩
abbrev S_ : Shape := ⟨0, ![]⟩

class Facts : Prop where
  bcast_S_S100000x1022 : S_.BroadcastsInDim S100000x1022 (![] : Fin 0 → Fin S100000x1022.rank)
  reducesTo_S100000x1022_S_d0_1 : S100000x1022.ReducesTo [0, 1] S_
  h_S_ : 0 < S_.numel
  bcast_S_S1022x10 : S_.BroadcastsInDim S1022x10 (![] : Fin 0 → Fin S1022x10.rank)
  reducesTo_S1022x10_S_d0_1 : S1022x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S10x2 : S_.BroadcastsInDim S10x2 (![] : Fin 0 → Fin S10x2.rank)
  reducesTo_S10x2_S_d0_1 : S10x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S10 .f32) (main_arg6 : FVec F S10x2 .f32) (main_arg7 : FVec F S2 .f32) (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x2 .f32 := Host.absf main_arg6
  let main_cst_8 : FVec F S_ .f32 := constant S_ .f32 0x7F800000#32
  let main_v25 : FVec F S10x2 .f32 := broadcastInDim S10x2 ![] bcast_S_S10x2 main_cst_8
  let main_v26 : IVec S10x2 1 := cmpf .olt main_v24 main_v25
  let main_c_9 : IVec S_ 1 := constantI S_ 1 1#1
  let main_v27 : IVec S_ 1 := (fun x v => Host.reduce IntOp.andi x v reducesTo_S10x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x1022 .f32) (main_arg1 : IVec S2x3200000 32) (main_arg2 : FVec F S1022x10 .f32) (main_arg3 : FVec F S10 .f32) (main_arg4 : FVec F S10x10 .f32) (main_arg5 : FVec F S10 .f32) (main_arg6 : FVec F S10x2 .f32) (main_arg7 : FVec F S2 .f32) : IVec S_ 1 :=
  let main_v0 : FVec F S100000x1022 .f32 := Host.absf main_arg0
  let main_cst : FVec F S_ .f32 := constant S_ .f32 0x7F800000#32
  let main_v1 : FVec F S100000x1022 .f32 := broadcastInDim S100000x1022 ![] bcast_S_S100000x1022 main_cst
  let main_v2 : IVec S100000x1022 1 := cmpf .olt main_v0 main_v1
  let main_c : IVec S_ 1 := constantI S_ 1 1#1
  let main_v3 : IVec S_ 1 := (fun x v => Host.reduce IntOp.andi x v reducesTo_S100000x1022_S_d0_1 h_S_) main_v2 main_c
  let main_v4 : FVec F S1022x10 .f32 := Host.absf main_arg2
  let main_cst_0 : FVec F S_ .f32 := constant S_ .f32 0x7F800000#32
  let main_v5 : FVec F S1022x10 .f32 := broadcastInDim S1022x10 ![] bcast_S_S1022x10 main_cst_0
  let main_v6 : IVec S1022x10 1 := cmpf .olt main_v4 main_v5
  let main_c_1 : IVec S_ 1 := constantI S_ 1 1#1
  let main_v7 : IVec S_ 1 := (fun x v => Host.reduce IntOp.andi x v reducesTo_S1022x10_S_d0_1 h_S_) main_v6 main_c_1
  let main_v8 : IVec S_ 1 := andi main_v3 main_v7
  let main_v9 : FVec F S10 .f32 := Host.absf main_arg3
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x10 .f32 := Host.absf main_arg4
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_arg5 main_arg6 main_arg7 main_v13 main_v16
-- ==== Kernel.lean ====
abbrev S100000x1022 : Shape := ⟨2, ![100000, 1022]⟩
abbrev S2x3200000 : Shape := ⟨2, ![2, 3200000]⟩
abbrev S1022x10 : Shape := ⟨2, ![1022, 10]⟩
abbrev S10 : Shape := ⟨1, ![10]⟩
abbrev S10x10 : Shape := ⟨2, ![10, 10]⟩
abbrev S10x2 : Shape := ⟨2, ![10, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x10 : Shape := ⟨2, ![100000, 10]⟩
abbrev S2000x1022 : Shape := ⟨2, ![2000, 1022]⟩
abbrev S2000x10 : Shape := ⟨2, ![2000, 10]⟩
abbrev S3200000x10 : Shape := ⟨2, ![3200000, 10]⟩
abbrev S100000x1 : Shape := ⟨2, ![100000, 1]⟩
abbrev S1x10 : Shape := ⟨2, ![1, 10]⟩
abbrev S10000x10 : Shape := ⟨2, ![10000, 10]⟩
abbrev S100000x2 : Shape := ⟨2, ![100000, 2]⟩
abbrev S10000x2 : Shape := ⟨2, ![10000, 2]⟩
abbrev S3200000x2 : Shape := ⟨2, ![3200000, 2]⟩
abbrev S1x2 : Shape := ⟨2, ![1, 2]⟩

abbrev nBuf : Space → Nat
  | .hbm => 175
  | .vmem => 15
  | .smem => 0
  | _ => 0

abbrev hbmTy0_0 (i : Nat) : BufTy := match i % 128 with
  | 0 => ⟨S100000x1022, .f32⟩
  | 1 => ⟨S2x3200000, .i32⟩
  | 2 => ⟨S1022x10, .f32⟩
  | 3 => ⟨S10, .f32⟩
  | 4 => ⟨S10x10, .f32⟩
  | 5 => ⟨S10, .f32⟩
  | 6 => ⟨S10x2, .f32⟩
  | 7 => ⟨S2, .f32⟩
  | 8 => ⟨S1x3200000, .i32⟩
  | 9 => ⟨S3200000, .i32⟩
  | 10 => ⟨S1x3200000, .i32⟩
  | 11 => ⟨S3200000, .i32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x10, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x10, .f32⟩
  | 51 => ⟨S3200000x1, .f32⟩
  | 52 => ⟨S3200000x10, .f32⟩
  | 53 => ⟨S3200000x10, .f32⟩
  | 54 => ⟨S_, .f32⟩
  | 55 => ⟨S100000x10, .f32⟩
  | 56 => ⟨S3200000x1, .i32⟩
  | 57 => ⟨S100000x10, .f32⟩
  | 58 => ⟨S100000, .f32⟩
  | 59 => ⟨S100000x1, .f32⟩
  | 60 => ⟨S100000x10, .f32⟩
  | 61 => ⟨S100000x10, .f32⟩
  | 62 => ⟨S100000x10, .f32⟩
  | 63 => ⟨S1x10, .f32⟩
  | 64 => ⟨S100000x10, .f32⟩
  | 65 => ⟨S100000x10, .f32⟩
  | 66 => ⟨S_, .f32⟩
  | 67 => ⟨S100000x10, .f32⟩
  | 68 => ⟨S100000x10, .f32⟩
  | 69 => ⟨S100000x10, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000, .f32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000x10, .f32⟩
  | 98 => ⟨S3200000x1, .f32⟩
  | 99 => ⟨S3200000x10, .f32⟩
  | 100 => ⟨S3200000x10, .f32⟩
  | 101 => ⟨S_, .f32⟩
  | 102 => ⟨S100000x10, .f32⟩
  | 103 => ⟨S3200000x1, .i32⟩
  | 104 => ⟨S100000x10, .f32⟩
  | 105 => ⟨S100000, .f32⟩
  | 106 => ⟨S100000x1, .f32⟩
  | 107 => ⟨S100000x10, .f32⟩
  | 108 => ⟨S100000x10, .f32⟩
  | 109 => ⟨S100000x10, .f32⟩
  | 110 => ⟨S1x10, .f32⟩
  | 111 => ⟨S100000x10, .f32⟩
  | 112 => ⟨S100000x10, .f32⟩
  | 113 => ⟨S_, .f32⟩
  | 114 => ⟨S100000x10, .f32⟩
  | 115 => ⟨S100000x10, .f32⟩
  | 116 => ⟨S100000x2, .f32⟩
  | 117 => ⟨S_, .i32⟩
  | 118 => ⟨S3200000, .i32⟩
  | 119 => ⟨S3200000, .i1⟩
  | 120 => ⟨S_, .i32⟩
  | 121 => ⟨S3200000, .i32⟩
  | 122 => ⟨S3200000, .i32⟩
  | 123 => ⟨S3200000, .i32⟩
  | 124 => ⟨S3200000x1, .i32⟩
  | 125 => ⟨S3200000, .f32⟩
  | 126 => ⟨S_, .i32⟩
  | 127 => ⟨S3200000, .i32⟩
  | _ => ⟨S100000x1022, .f32⟩

abbrev hbmTy0_1 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000, .f32⟩
  | 7 => ⟨S3200000, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x2, .f32⟩
  | 17 => ⟨S3200000x1, .f32⟩
  | 18 => ⟨S3200000x2, .f32⟩
  | 19 => ⟨S3200000x2, .f32⟩
  | 20 => ⟨S_, .f32⟩
  | 21 => ⟨S100000x2, .f32⟩
  | 22 => ⟨S3200000x1, .i32⟩
  | 23 => ⟨S100000x2, .f32⟩
  | 24 => ⟨S100000, .f32⟩
  | 25 => ⟨S100000x1, .f32⟩
  | 26 => ⟨S100000x2, .f32⟩
  | 27 => ⟨S100000x2, .f32⟩
  | 28 => ⟨S100000x2, .f32⟩
  | 29 => ⟨S1x2, .f32⟩
  | 30 => ⟨S100000x2, .f32⟩
  | 31 => ⟨S100000x2, .f32⟩
  | 32 => ⟨S_, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x2, .f32⟩
  | 39 => ⟨S100000x2, .f32⟩
  | 40 => ⟨S100000x2, .f32⟩
  | 41 => ⟨S_, .f32⟩
  | 42 => ⟨S100000, .f32⟩
  | 43 => ⟨S100000x1, .f32⟩
  | 44 => ⟨S100000x1, .f32⟩
  | 45 => ⟨S100000x2, .f32⟩
  | 46 => ⟨S100000x2, .f32⟩
  | _ => ⟨S100000x1022, .f32⟩

abbrev hbmTy (i : Nat) : BufTy := match i / 128 with
  | 0 => hbmTy0_0 i
  | 1 => hbmTy0_1 i
  | _ => ⟨S100000x1022, .f32⟩

abbrev bufTy : (tb : Table) → Fin (tcTables nBuf tb) → BufTy
  | .hbm, ⟨i, _⟩ => hbmTy i
  | .local _ .vmem, ⟨0, _⟩ => ⟨S2000x1022, .f32⟩
  | .local _ .vmem, ⟨1, _⟩ => ⟨S2000x1022, .f32⟩
  | .local _ .vmem, ⟨2, _⟩ => ⟨S1022x10, .f32⟩
  | .local _ .vmem, ⟨3, _⟩ => ⟨S2000x10, .f32⟩
  | .local _ .vmem, ⟨4, _⟩ => ⟨S2000x10, .f32⟩
  | .local _ .vmem, ⟨5, _⟩ => ⟨S10000x10, .f32⟩
  | .local _ .vmem, ⟨6, _⟩ => ⟨S10000x10, .f32⟩
  | .local _ .vmem, ⟨7, _⟩ => ⟨S10x10, .f32⟩
  | .local _ .vmem, ⟨8, _⟩ => ⟨S10000x10, .f32⟩
  | .local _ .vmem, ⟨9, _⟩ => ⟨S10000x10, .f32⟩
  | .local _ .vmem, ⟨10, _⟩ => ⟨S10000x10, .f32⟩
  | .local _ .vmem, ⟨11, _⟩ => ⟨S10000x10, .f32⟩
  | .local _ .vmem, ⟨12, _⟩ => ⟨S10x2, .f32⟩
  | .local _ .vmem, ⟨13, _⟩ => ⟨S10000x2, .f32⟩
  | .local _ .vmem, ⟨14, _⟩ => ⟨S10000x2, .f32⟩
  | _, _ => ⟨S100000x1022, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_17 : Ref sig .tc := ⟨.hbm, 117, rfl⟩
abbrev main_v90 : Ref sig .tc := ⟨.hbm, 118, rfl⟩
abbrev main_v91 : Ref sig .tc := ⟨.hbm, 119, rfl⟩
abbrev main_c_18 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_19 : Ref sig .tc := ⟨.hbm, 126, rfl⟩
abbrev main_v97 : Ref sig .tc := ⟨.hbm, 127, rfl⟩
abbrev main_v98 : Ref sig .tc := ⟨.hbm, 128, rfl⟩
abbrev main_c_20 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_21 : Ref sig .tc := ⟨.hbm, 136, rfl⟩
abbrev main_v105 : Ref sig .tc := ⟨.hbm, 137, rfl⟩
abbrev main_v106 : Ref sig .tc := ⟨.hbm, 138, rfl⟩
abbrev main_c_22 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_23 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_call0_cst : Ref sig .tc := ⟨.hbm, 160, rfl⟩
abbrev main_call0_v0 : Ref sig .tc := ⟨.hbm, 161, rfl⟩
abbrev main_call0_cst_0 : Ref sig .tc := ⟨.hbm, 162, rfl⟩
abbrev main_call0_v1 : Ref sig .tc := ⟨.hbm, 163, rfl⟩
abbrev main_call0_v2 : Ref sig .tc := ⟨.hbm, 164, rfl⟩
abbrev main_call0_v3 : Ref sig .tc := ⟨.hbm, 165, rfl⟩
abbrev main_call0_v4 : Ref sig .tc := ⟨.hbm, 166, rfl⟩
abbrev main_call0_v5 : Ref sig .tc := ⟨.hbm, 167, rfl⟩
abbrev main_call0_v6 : Ref sig .tc := ⟨.hbm, 168, rfl⟩
abbrev main_call0_cst_1 : Ref sig .tc := ⟨.hbm, 169, rfl⟩
abbrev main_call0_v7 : Ref sig .tc := ⟨.hbm, 170, rfl⟩
abbrev main_call0_v8 : Ref sig .tc := ⟨.hbm, 171, rfl⟩
abbrev main_call0_v9 : Ref sig .tc := ⟨.hbm, 172, rfl⟩
abbrev main_call0_v10 : Ref sig .tc := ⟨.hbm, 173, rfl⟩
abbrev main_v126 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1022 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1022x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S2000x1022_S2000x1022_0_0 : ∀ a, (![0, 0] : Fin 2 → Nat) a + S2000x1022.size a ≤ S2000x1022.size a
  h_S2000x1022 : 0 < S2000x1022.numel
  inb_S1022x10_S1022x10_0_0 : ∀ a, (![0, 0] : Fin 2 → Nat) a + S1022x10.size a ≤ S1022x10.size a
  h_S1022x10 : 0 < S1022x10.numel
  inb_S2000x10_S2000x10_0_0 : ∀ a, (![0, 0] : Fin 2 → Nat) a + S2000x10.size a ≤ S2000x10.size a
  h_S2000x10 : 0 < S2000x10.numel
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  inb_S10x10_S10x10_0_0 : ∀ a, (![0, 0] : Fin 2 → Nat) a + S10x10.size a ≤ S10x10.size a
  h_S10x10 : 0 < S10x10.numel
  inb_S10x2_S10x2_0_0 : ∀ a, (![0, 0] : Fin 2 → Nat) a + S10x2.size a ≤ S10x2.size a
  h_S10x2 : 0 < S10x2.numel
  inb_S10000x2_S10000x2_0_0 : ∀ a, (![0, 0] : Fin 2 → Nat) a + S10000x2.size a ≤ S10000x2.size a
  h_S10000x2 : 0 < S10000x2.numel
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  scatter_S100000_S3200000x1_S3200000_n_0_0_1_wf : ScatterDims.WF S100000 S3200000x1 S3200000 [] [0] [0] 1
  dot_S2000x1022_S1022x10_S2000x10_1_0_0_1_n_n_wf : DotDims.WF S2000x1022 S1022x10 S2000x10 [1] [0] [0] [1] [] []
  gather_S100000_S3200000x1_S3200000_n_0_n_n_0_1_1_wf : GatherDims.WF S100000 S3200000x1 S3200000 [] [0] [] [0] [] 1 ![1]
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S10000x10_S10x10_S10000x10_1_0_0_1_n_n_wf : DotDims.WF S10000x10 S10x10 S10000x10 [1] [0] [0] [1] [] []
  dot_S10000x10_S10x2_S10000x2_1_0_0_1_n_n_wf : DotDims.WF S10000x10 S10x2 S10000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1022.size a ≤ S100000x1022.size a
  hwx0_0 : ∀ i : grid0.Coords, EltTy.bits .f32 = 32 ∨ (Rect.block (s := S100000x1022) S2000x1022.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1022x10.size a ≤ S1022x10.size a
  hwx0_1 : ∀ i : grid0.Coords, EltTy.bits .f32 = 32 ∨ (Rect.block (s := S1022x10) S1022x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x10.size a ≤ S100000x10.size a
  hwx0_2 : ∀ i : grid0.Coords, EltTy.bits .f32 = 32 ∨ (Rect.block (s := S100000x10) S2000x10.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x10.size a ≤ S100000x10.size a
  hwx1_0 : ∀ i : grid1.Coords, EltTy.bits .f32 = 32 ∨ (Rect.block (s := S100000x10) S10000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x10.size a ≤ S10x10.size a
  hwx1_1 : ∀ i : grid1.Coords, EltTy.bits .f32 = 32 ∨ (Rect.block (s := S10x10) S10x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x10.size a ≤ S100000x10.size a
  hwx1_2 : ∀ i : grid1.Coords, EltTy.bits .f32 = 32 ∨ (Rect.block (s := S100000x10) S10000x10.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x10.size a ≤ S100000x10.size a
  hwx2_0 : ∀ i : grid2.Coords, EltTy.bits .f32 = 32 ∨ (Rect.block (s := S100000x10) S10000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10x2.size a ≤ S10x2.size a
  hwx2_1 : ∀ i : grid2.Coords, EltTy.bits .f32 = 32 ∨ (Rect.block (s := S10x2) S10x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x1022_S1022x10_S2000x10_1_0_0_1_n_n : DotDims S2000x1022 S1022x10 S2000x10 where
  lhsContracting := [1]
  rhsContracting := [0]
  lhsNonContracting := [0]
  rhsNonContracting := [1]
  lhsBatch := []
  rhsBatch := []
  wf := dot_S2000x1022_S1022x10_S2000x10_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S10000x10_S10x10_S10000x10_1_0_0_1_n_n : DotDims S10000x10 S10x10 S10000x10 where
  lhsContracting := [1]
  rhsContracting := [0]
  lhsNonContracting := [0]
  rhsNonContracting := [1]
  lhsBatch := []
  rhsBatch := []
  wf := dot_S10000x10_S10x10_S10000x10_1_0_0_1_n_n_wf
def dot_S10000x10_S10x2_S10000x2_1_0_0_1_n_n : DotDims S10000x10 S10x2 S10000x2 where
  lhsContracting := [1]
  rhsContracting := [0]
  lhsNonContracting := [0]
  rhsNonContracting := [1]
  lhsBatch := []
  rhsBatch := []
  wf := dot_S10000x10_S10x2_S10000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

abbrev win0_0 : Pipeline.Window sig grid0 :=
  Pipeline.Window.ofSpec (Memref.whole main_arg0) S2000x1022.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1022x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S10x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v88) S10000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S10x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v89) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x1022 : Shape := ⟨2, ![100000, 1022]⟩
abbrev S2x3200000 : Shape := ⟨2, ![2, 3200000]⟩
abbrev S1022x10 : Shape := ⟨2, ![1022, 10]⟩
abbrev S10 : Shape := ⟨1, ![10]⟩
abbrev S10x10 : Shape := ⟨2, ![10, 10]⟩
abbrev S10x2 : Shape := ⟨2, ![10, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x10 : Shape := ⟨2, ![100000, 10]⟩
abbrev S3200000x10 : Shape := ⟨2, ![3200000, 10]⟩
abbrev S100000x1 : Shape := ⟨2, ![100000, 1]⟩
abbrev S1x10 : Shape := ⟨2, ![1, 10]⟩
abbrev S100000x2 : Shape := ⟨2, ![100000, 2]⟩
abbrev S3200000x2 : Shape := ⟨2, ![3200000, 2]⟩
abbrev S1x2 : Shape := ⟨2, ![1, 2]⟩

abbrev nBuf : Space → Nat
  | .hbm => 175
  | .vmem => 0
  | .smem => 0
  | _ => 0

abbrev hbmTy0_0 (i : Nat) : BufTy := match i % 128 with
  | 0 => ⟨S100000x1022, .f32⟩
  | 1 => ⟨S2x3200000, .i32⟩
  | 2 => ⟨S1022x10, .f32⟩
  | 3 => ⟨S10, .f32⟩
  | 4 => ⟨S10x10, .f32⟩
  | 5 => ⟨S10, .f32⟩
  | 6 => ⟨S10x2, .f32⟩
  | 7 => ⟨S2, .f32⟩
  | 8 => ⟨S1x3200000, .i32⟩
  | 9 => ⟨S3200000, .i32⟩
  | 10 => ⟨S1x3200000, .i32⟩
  | 11 => ⟨S3200000, .i32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x10, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x10, .f32⟩
  | 51 => ⟨S3200000x1, .f32⟩
  | 52 => ⟨S3200000x10, .f32⟩
  | 53 => ⟨S3200000x10, .f32⟩
  | 54 => ⟨S_, .f32⟩
  | 55 => ⟨S100000x10, .f32⟩
  | 56 => ⟨S3200000x1, .i32⟩
  | 57 => ⟨S100000x10, .f32⟩
  | 58 => ⟨S100000, .f32⟩
  | 59 => ⟨S100000x1, .f32⟩
  | 60 => ⟨S100000x10, .f32⟩
  | 61 => ⟨S100000x10, .f32⟩
  | 62 => ⟨S100000x10, .f32⟩
  | 63 => ⟨S1x10, .f32⟩
  | 64 => ⟨S100000x10, .f32⟩
  | 65 => ⟨S100000x10, .f32⟩
  | 66 => ⟨S_, .f32⟩
  | 67 => ⟨S100000x10, .f32⟩
  | 68 => ⟨S100000x10, .f32⟩
  | 69 => ⟨S100000x10, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000, .f32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000x10, .f32⟩
  | 98 => ⟨S3200000x1, .f32⟩
  | 99 => ⟨S3200000x10, .f32⟩
  | 100 => ⟨S3200000x10, .f32⟩
  | 101 => ⟨S_, .f32⟩
  | 102 => ⟨S100000x10, .f32⟩
  | 103 => ⟨S3200000x1, .i32⟩
  | 104 => ⟨S100000x10, .f32⟩
  | 105 => ⟨S100000, .f32⟩
  | 106 => ⟨S100000x1, .f32⟩
  | 107 => ⟨S100000x10, .f32⟩
  | 108 => ⟨S100000x10, .f32⟩
  | 109 => ⟨S100000x10, .f32⟩
  | 110 => ⟨S1x10, .f32⟩
  | 111 => ⟨S100000x10, .f32⟩
  | 112 => ⟨S100000x10, .f32⟩
  | 113 => ⟨S_, .f32⟩
  | 114 => ⟨S100000x10, .f32⟩
  | 115 => ⟨S100000x10, .f32⟩
  | 116 => ⟨S100000x2, .f32⟩
  | 117 => ⟨S_, .i32⟩
  | 118 => ⟨S3200000, .i32⟩
  | 119 => ⟨S3200000, .i1⟩
  | 120 => ⟨S_, .i32⟩
  | 121 => ⟨S3200000, .i32⟩
  | 122 => ⟨S3200000, .i32⟩
  | 123 => ⟨S3200000, .i32⟩
  | 124 => ⟨S3200000x1, .i32⟩
  | 125 => ⟨S3200000, .f32⟩
  | 126 => ⟨S_, .i32⟩
  | 127 => ⟨S3200000, .i32⟩
  | _ => ⟨S100000x1022, .f32⟩

abbrev hbmTy0_1 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000, .f32⟩
  | 7 => ⟨S3200000, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x2, .f32⟩
  | 17 => ⟨S3200000x1, .f32⟩
  | 18 => ⟨S3200000x2, .f32⟩
  | 19 => ⟨S3200000x2, .f32⟩
  | 20 => ⟨S_, .f32⟩
  | 21 => ⟨S100000x2, .f32⟩
  | 22 => ⟨S3200000x1, .i32⟩
  | 23 => ⟨S100000x2, .f32⟩
  | 24 => ⟨S100000, .f32⟩
  | 25 => ⟨S100000x1, .f32⟩
  | 26 => ⟨S100000x2, .f32⟩
  | 27 => ⟨S100000x2, .f32⟩
  | 28 => ⟨S100000x2, .f32⟩
  | 29 => ⟨S1x2, .f32⟩
  | 30 => ⟨S100000x2, .f32⟩
  | 31 => ⟨S100000x2, .f32⟩
  | 32 => ⟨S_, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x2, .f32⟩
  | 39 => ⟨S100000x2, .f32⟩
  | 40 => ⟨S100000x2, .f32⟩
  | 41 => ⟨S_, .f32⟩
  | 42 => ⟨S100000, .f32⟩
  | 43 => ⟨S100000x1, .f32⟩
  | 44 => ⟨S100000x1, .f32⟩
  | 45 => ⟨S100000x2, .f32⟩
  | 46 => ⟨S100000x2, .f32⟩
  | _ => ⟨S100000x1022, .f32⟩

abbrev hbmTy (i : Nat) : BufTy := match i / 128 with
  | 0 => hbmTy0_0 i
  | 1 => hbmTy0_1 i
  | _ => ⟨S100000x1022, .f32⟩

abbrev bufTy : (tb : Table) → Fin (tcTables nBuf tb) → BufTy
  | .hbm, ⟨i, _⟩ => hbmTy i
  | _, _ => ⟨S100000x1022, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_21 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_call2_cst : Ref sig .tc := ⟨.hbm, 160, rfl⟩
abbrev main_call2_v0 : Ref sig .tc := ⟨.hbm, 161, rfl⟩
abbrev main_call2_cst_0 : Ref sig .tc := ⟨.hbm, 162, rfl⟩
abbrev main_call2_v1 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_cst_1 : Ref sig .tc := ⟨.hbm, 169, rfl⟩
abbrev main_call2_v7 : Ref sig .tc := ⟨.hbm, 170, rfl⟩
abbrev main_call2_v8 : Ref sig .tc := ⟨.hbm, 171, rfl⟩
abbrev main_call2_v9 : Ref sig .tc := ⟨.hbm, 172, rfl⟩
abbrev main_call2_v10 : Ref sig .tc := ⟨.hbm, 173, rfl⟩
abbrev main_v124 : Ref sig .tc := ⟨.hbm, 174, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  scatter_S100000_S3200000x1_S3200000_n_0_0_1_wf : ScatterDims.WF S100000 S3200000x1 S3200000 [] [0] [0] 1
  dot_S100000x1022_S1022x10_S100000x10_1_0_0_1_n_n_wf : DotDims.WF S100000x1022 S1022x10 S100000x10 [1] [0] [0] [1] [] []
  gather_S100000_S3200000x1_S3200000_n_0_n_n_0_1_1_wf : GatherDims.WF S100000 S3200000x1 S3200000 [] [0] [] [0] [] 1 ![1]
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S100000x10_S10x10_S100000x10_1_0_0_1_n_n_wf : DotDims.WF S100000x10 S10x10 S100000x10 [1] [0] [0] [1] [] []
  dot_S100000x10_S10x2_S100000x2_1_0_0_1_n_n_wf : DotDims.WF S100000x10 S10x2 S100000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x1022_S1022x10_S100000x10_1_0_0_1_n_n : DotDims S100000x1022 S1022x10 S100000x10 where
  lhsContracting := [1]
  rhsContracting := [0]
  lhsNonContracting := [0]
  rhsNonContracting := [1]
  lhsBatch := []
  rhsBatch := []
  wf := dot_S100000x1022_S1022x10_S100000x10_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S100000x10_S10x10_S100000x10_1_0_0_1_n_n : DotDims S100000x10 S10x10 S100000x10 where
  lhsContracting := [1]
  rhsContracting := [0]
  lhsNonContracting := [0]
  rhsNonContracting := [1]
  lhsBatch := []
  rhsBatch := []
  wf := dot_S100000x10_S10x10_S100000x10_1_0_0_1_n_n_wf
def dot_S100000x10_S10x2_S100000x2_1_0_0_1_n_n : DotDims S100000x10 S10x2 S100000x2 where
  lhsContracting := [1]
  rhsContracting := [0]
  lhsNonContracting := [0]
  rhsNonContracting := [1]
  lhsBatch := []
  rhsBatch := []
  wf := dot_S100000x10_S10x2_S100000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

class Facts : Prop extends Facts₀ where

variable [Facts]
-- ==== Proof.Fold.lean ====
/-
  The program between its matrix products, read against the reference one stretch at a time.

  Apart from the three launches, @main is host arithmetic: a prefix (the two index rows, the degree vector and its
  inverse square root), after each of the first two launches a graph-convolution step followed by a rectifier, and after
  the third launch a graph-convolution step followed by a row-wise log-softmax. The reference runs the same host
  operations in the same order on the same operands; where this program has a launch the reference has one
  `dot_general`. So IF each launch's output array is what the reference's `dot_general` gives on the same operands
  (the hypotheses `h11`, `h50`, `h89` below, which hold at the ideal values and are proved elsewhere), then every
  later buffer holds exactly the reference's value of the corresponding buffer, and in particular the result does.
  Nothing here opens an arithmetic operation: the two sides are the same operations applied to the same values, so
  the statements hold for any float family.

  A buffer no operation of a stretch writes, and no launch uses as an array, is carried unchanged across that stretch or
  launch: that is how an argument, the two index rows and the inverse-square-root vector reach the later stretches.
-/
import proofs.«418678_j36361193128467_3_alg».proof.Proof.Gen.KernelIdeal.Frame
import proofs.«418678_j36361193128467_3_alg».proof.Proof.RefRead

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## The argument arrays at launch -/

abbrev a0 : (⟨S100000x1022, .f32⟩ : BufTy).Contents (Elt F) := m ((c.tc : Thread nD τ).loc main_arg0)
abbrev a1 : (⟨S2x3200000, .i32⟩ : BufTy).Contents (Elt F) := m ((c.tc : Thread nD τ).loc main_arg1)
abbrev a2 : (⟨S1022x10, .f32⟩ : BufTy).Contents (Elt F) := m ((c.tc : Thread nD τ).loc main_arg2)
abbrev a3 : (⟨S10, .f32⟩ : BufTy).Contents (Elt F) := m ((c.tc : Thread nD τ).loc main_arg3)
abbrev a4 : (⟨S10x10, .f32⟩ : BufTy).Contents (Elt F) := m ((c.tc : Thread nD τ).loc main_arg4)
abbrev a5 : (⟨S10, .f32⟩ : BufTy).Contents (Elt F) := m ((c.tc : Thread nD τ).loc main_arg5)
abbrev a6 : (⟨S10x2, .f32⟩ : BufTy).Contents (Elt F) := m ((c.tc : Thread nD τ).loc main_arg6)
abbrev a7 : (⟨S2, .f32⟩ : BufTy).Contents (Elt F) := m ((c.tc : Thread nD τ).loc main_arg7)

/-! ## A buffer that a stretch does not write, or a launch does not use, is carried across it -/

/-- No operation of the named stretch writes the buffer in question: one inequality of references per operation. -/
local macro "untouched_by " ops:ident : term => `(List.forall_iff_forall_mem.mp (by
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem keep0 (b : Ref sig .tc)
    (h : ∀ op ∈ (hostOps0 : List (HloOp τ sig (Elt F))), (Proc.devRef .tc b : DevRef τ sig) ∉ op.writes) :
    W1 m ρ c (Proc.devRef .tc b) = W0 m ρ c (Proc.devRef .tc b) :=
  StableHlo.after_of_forall_not_mem (b := Proc.devRef .tc b) _ _ h
theorem keep1 (b : Ref sig .tc)
    (h : ∀ op ∈ (hostOps1 : List (HloOp τ sig (Elt F))), (Proc.devRef .tc b : DevRef τ sig) ∉ op.writes) :
    W3 m ρ c (Proc.devRef .tc b) = W2 m ρ c (Proc.devRef .tc b) :=
  StableHlo.after_of_forall_not_mem (b := Proc.devRef .tc b) _ _ h
theorem keep2 (b : Ref sig .tc)
    (h : ∀ op ∈ (hostOps2 : List (HloOp τ sig (Elt F))), (Proc.devRef .tc b : DevRef τ sig) ∉ op.writes) :
    W5 m ρ c (Proc.devRef .tc b) = W4 m ρ c (Proc.devRef .tc b) :=
  StableHlo.after_of_forall_not_mem (b := Proc.devRef .tc b) _ _ h

/-! ### The arguments at the boundaries where they are read -/

theorem w1_arg0 : W1 m ρ c (Proc.devRef .tc main_arg0) = a0 m c := keep0 m ρ c main_arg0 (untouched_by hostOps0)
theorem w1_arg2 : W1 m ρ c (Proc.devRef .tc main_arg2) = a2 m c := keep0 m ρ c main_arg2 (untouched_by hostOps0)
theorem w1_arg3 : W1 m ρ c (Proc.devRef .tc main_arg3) = a3 m c := keep0 m ρ c main_arg3 (untouched_by hostOps0)
theorem w1_arg4 : W1 m ρ c (Proc.devRef .tc main_arg4) = a4 m c := keep0 m ρ c main_arg4 (untouched_by hostOps0)
theorem w1_arg5 : W1 m ρ c (Proc.devRef .tc main_arg5) = a5 m c := keep0 m ρ c main_arg5 (untouched_by hostOps0)
theorem w1_arg6 : W1 m ρ c (Proc.devRef .tc main_arg6) = a6 m c := keep0 m ρ c main_arg6 (untouched_by hostOps0)
theorem w1_arg7 : W1 m ρ c (Proc.devRef .tc main_arg7) = a7 m c := keep0 m ρ c main_arg7 (untouched_by hostOps0)

theorem w2_arg3 : W2 m ρ c (Proc.devRef .tc main_arg3) = a3 m c :=
  (W2_of_ne m ρ c main_arg3 (by decide)).trans (w1_arg3 m ρ c)
theorem w3_arg4 : W3 m ρ c (Proc.devRef .tc main_arg4) = a4 m c :=
  (keep1 m ρ c main_arg4 (untouched_by hostOps1)).trans ((W2_of_ne m ρ c main_arg4 (by decide)).trans (w1_arg4 m ρ c))
theorem w3_arg5 : W3 m ρ c (Proc.devRef .tc main_arg5) = a5 m c :=
  (keep1 m ρ c main_arg5 (untouched_by hostOps1)).trans ((W2_of_ne m ρ c main_arg5 (by decide)).trans (w1_arg5 m ρ c))
theorem w4_arg5 : W4 m ρ c (Proc.devRef .tc main_arg5) = a5 m c :=
  (W4_of_ne m ρ c main_arg5 (by decide)).trans (w3_arg5 m ρ c)
theorem w3_arg6 : W3 m ρ c (Proc.devRef .tc main_arg6) = a6 m c :=
  (keep1 m ρ c main_arg6 (untouched_by hostOps1)).trans ((W2_of_ne m ρ c main_arg6 (by decide)).trans (w1_arg6 m ρ c))
theorem w5_arg6 : W5 m ρ c (Proc.devRef .tc main_arg6) = a6 m c :=
  (keep2 m ρ c main_arg6 (untouched_by hostOps2)).trans ((W4_of_ne m ρ c main_arg6 (by decide)).trans (w3_arg6 m ρ c))
theorem w3_arg7 : W3 m ρ c (Proc.devRef .tc main_arg7) = a7 m c :=
  (keep1 m ρ c main_arg7 (untouched_by hostOps1)).trans ((W2_of_ne m ρ c main_arg7 (by decide)).trans (w1_arg7 m ρ c))
theorem w5_arg7 : W5 m ρ c (Proc.devRef .tc main_arg7) = a7 m c :=
  (keep2 m ρ c main_arg7 (untouched_by hostOps2)).trans ((W4_of_ne m ρ c main_arg7 (by decide)).trans (w3_arg7 m ρ c))
theorem w6_arg7 : W6 m ρ c (Proc.devRef .tc main_arg7) = a7 m c :=
  (W6_of_ne m ρ c main_arg7 (by decide)).trans (w5_arg7 m ρ c)

/-! ## The prefix: the source row, the destination row and the inverse square root of the degree -/

theorem w1_v1 : W1 m ρ c (Proc.devRef .tc main_v1) = Cert.ReferenceIdeal.ReadP.val_main_v1 (a1 m c) := by
  show StableHlo.after hostOps0 (W0 m ρ c) (Proc.devRef .tc main_v1) = _
  after_results
  rfl
theorem w1_v3 : W1 m ρ c (Proc.devRef .tc main_v3) = Cert.ReferenceIdeal.ReadP.val_main_v3 (a1 m c) := by
  show StableHlo.after hostOps0 (W0 m ρ c) (Proc.devRef .tc main_v3) = _
  after_results
  rfl
theorem w1_v10 : W1 m ρ c (Proc.devRef .tc main_v10) = Cert.ReferenceIdeal.ReadP.val_main_v10 (a1 m c) := by
  show StableHlo.after hostOps0 (W0 m ρ c) (Proc.devRef .tc main_v10) = _
  after_results
  rfl

/-! ### … carried to the later stretches -/

theorem w2_v1 : W2 m ρ c (Proc.devRef .tc main_v1) = Cert.ReferenceIdeal.ReadP.val_main_v1 (a1 m c) :=
  (W2_of_ne m ρ c main_v1 (by decide)).trans (w1_v1 m ρ c)
theorem w2_v3 : W2 m ρ c (Proc.devRef .tc main_v3) = Cert.ReferenceIdeal.ReadP.val_main_v3 (a1 m c) :=
  (W2_of_ne m ρ c main_v3 (by decide)).trans (w1_v3 m ρ c)
theorem w2_v10 : W2 m ρ c (Proc.devRef .tc main_v10) = Cert.ReferenceIdeal.ReadP.val_main_v10 (a1 m c) :=
  (W2_of_ne m ρ c main_v10 (by decide)).trans (w1_v10 m ρ c)
theorem w4_v1 : W4 m ρ c (Proc.devRef .tc main_v1) = Cert.ReferenceIdeal.ReadP.val_main_v1 (a1 m c) :=
  (W4_of_ne m ρ c main_v1 (by decide)).trans ((keep1 m ρ c main_v1 (untouched_by hostOps1)).trans (w2_v1 m ρ c))
theorem w4_v3 : W4 m ρ c (Proc.devRef .tc main_v3) = Cert.ReferenceIdeal.ReadP.val_main_v3 (a1 m c) :=
  (W4_of_ne m ρ c main_v3 (by decide)).trans ((keep1 m ρ c main_v3 (untouched_by hostOps1)).trans (w2_v3 m ρ c))
theorem w4_v10 : W4 m ρ c (Proc.devRef .tc main_v10) = Cert.ReferenceIdeal.ReadP.val_main_v10 (a1 m c) :=
  (W4_of_ne m ρ c main_v10 (by decide)).trans ((keep1 m ρ c main_v10 (untouched_by hostOps1)).trans (w2_v10 m ρ c))
theorem w6_v1 : W6 m ρ c (Proc.devRef .tc main_v1) = Cert.ReferenceIdeal.ReadP.val_main_v1 (a1 m c) :=
  (W6_of_ne m ρ c main_v1 (by decide)).trans ((keep2 m ρ c main_v1 (untouched_by hostOps2)).trans (w4_v1 m ρ c))
theorem w6_v3 : W6 m ρ c (Proc.devRef .tc main_v3) = Cert.ReferenceIdeal.ReadP.val_main_v3 (a1 m c) :=
  (W6_of_ne m ρ c main_v3 (by decide)).trans ((keep2 m ρ c main_v3 (untouched_by hostOps2)).trans (w4_v3 m ρ c))
theorem w6_v10 : W6 m ρ c (Proc.devRef .tc main_v10) = Cert.ReferenceIdeal.ReadP.val_main_v10 (a1 m c) :=
  (W6_of_ne m ρ c main_v10 (by decide)).trans ((keep2 m ρ c main_v10 (untouched_by hostOps2)).trans (w4_v10 m ρ c))

/-! ## The three stretches after the launches -/

/-- After the first launch: the first graph-convolution step and its rectifier, the second launch's left operand. -/
theorem rectified1
    (h11 : W2 m ρ c (Proc.devRef .tc main_v11) = Cert.ReferenceIdeal.ReadP.val_main_v11 (a0 m c) (a2 m c)) :
    W3 m ρ c (Proc.devRef .tc main_v49) = Cert.ReferenceIdeal.ReadP.val_main_v48 (a0 m c) (a1 m c) (a2 m c) (a3 m c) := by
  show StableHlo.after hostOps1 (W2 m ρ c) (Proc.devRef .tc main_v49) = _
  after_results_simp
  rw [h11, w2_v1 m ρ c, w2_v3 m ρ c, w2_v10 m ρ c, w2_arg3 m ρ c]
  rfl

/-- After the second launch: the second graph-convolution step and its rectifier, the third launch's left operand. -/
theorem rectified2
    (h50 : W4 m ρ c (Proc.devRef .tc main_v50) = Cert.ReferenceIdeal.ReadP.val_main_v49 (a0 m c) (a1 m c) (a2 m c) (a3 m c) (a4 m c)) :
    W5 m ρ c (Proc.devRef .tc main_v88) = Cert.ReferenceIdeal.ReadP.val_main_v86 (a0 m c) (a1 m c) (a2 m c) (a3 m c) (a4 m c) (a5 m c) := by
  show StableHlo.after hostOps2 (W4 m ρ c) (Proc.devRef .tc main_v88) = _
  after_results_simp
  rw [h50, w4_v1 m ρ c, w4_v3 m ρ c, w4_v10 m ρ c, w4_arg5 m ρ c]
  rfl

/-- After the third launch: the third graph-convolution step and the row-wise log-softmax, the result. -/
theorem result
    (h89 : W6 m ρ c (Proc.devRef .tc main_v89) = Cert.ReferenceIdeal.ReadP.val_main_v87 (a0 m c) (a1 m c) (a2 m c) (a3 m c) (a4 m c) (a5 m c) (a6 m c)) :
    W8 m ρ c (Proc.devRef .tc main_v126) = Cert.ReferenceIdeal.ReadP.val_main_v124 (a0 m c) (a1 m c) (a2 m c) (a3 m c) (a4 m c) (a5 m c) (a6 m c) (a7 m c) := by
  show StableHlo.after hostOps3_1 (StableHlo.after hostOps3 (W6 m ρ c)) (Proc.devRef .tc main_v126) = _
  after_results_simp
  -- the log-softmax's operations are written through typed references: read them as the plain buffers they are
  try simp only [StableHlo.TRef.ofBuf, StableHlo.TRef.toBuf, cast_eq]
  rw [h89, w6_v1 m ρ c, w6_v3 m ρ c, w6_v10 m ρ c, w6_arg7 m ρ c]
  rfl

end Cert.KernelIdeal.Fold

end
-- ==== Proof.LibRowProducts.lean ====
/-
  A plain matrix product read at one entry.

  For dimension numbers that contract the left operand's axis 1 with the right operand's axis 0, keep the left
  operand's axis 0 and the right operand's axis 1, and batch nothing, the operand indices at result entry (r, c) and
  contraction position k are (r, k) and (k, c). So both the accumulate-into-zero `tpu.matmul` and the host's
  `dot_general` are, at the ideal values, the entry's plain sum  ∑ q < K, l (r, q) · w (q, c)  over the shared axis:
  the same extended real whatever the number of rows of the left operand. This is the one fact that identifies a
  product computed a block of rows at a time with the product of the whole array.
-/
import Idealize.ShloMosaic.PureOps.Ideal.Laws
import Idealize.ShloMosaic.Lib.ValueIdx

noncomputable section

open scoped BigOperators

namespace Cert.Lib.RowProducts

open Idealize.ShloMosaic Idealize.ShloMosaic.ValueIdx

variable {n K c : Nat}

/-- Dimension numbers of a plain product [n, K] × [K, c] → [n, c]: contract left axis 1 with right axis 0, rows from
    the left, columns from the right, no batch axis. -/
structure Plain (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

private theorem val_congr {s : Shape} (j : s.Idx) (p q : Nat) (hp : p < s.rank) (hq : q < s.rank) (h : p = q) :
    (j ⟨p, hp⟩).val = (j ⟨q, hq⟩).val := by subst h; rfl

theorem Plain.rank_contr (h : Plain d) : d.contr.rank = 1 := by rw [d.rank_contr, h.lc]; rfl

theorem Plain.size_contr (h : Plain d) : d.contr.size ⟨0, by rw [h.rank_contr]; exact Nat.one_pos⟩ = K := by
  have := d.size_contr 0 (by rw [h.lc]; exact Nat.one_pos)
  rw [this]; simp only [h.lc]; rfl

/-- The left operand's row is the result's row. -/
theorem Plain.lhs_row (h : Plain d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem Plain.lhs_col (h : Plain d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem Plain.rhs_row (h : Plain d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem Plain.rhs_col (h : Plain d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, c). -/
theorem Plain.sum_eq (h : Plain d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  rw [← Equiv.sum_comp (contrEquiv1 d K h.rank_contr h.size_contr).symm]
  refine Finset.sum_congr rfl fun q _ => ?_
  have hk := contrEquiv1_symm_val d K h.rank_contr h.size_contr q
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values. -/
theorem Plain.matmul_zero_apply (h : Plain d) (prec : Option ContractPrecision)
    (l : FVec Ideal ⟨2, ![n, K]⟩ .f32) (w : FVec Ideal ⟨2, ![K, c]⟩ .f32) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem Plain.dotGeneral_apply (h : Plain d) (prec : Option ContractPrecision)
    (l : FVec Ideal ⟨2, ![n, K]⟩ .f32) (w : FVec Ideal ⟨2, ![K, c]⟩ .f32) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.RowProducts

end
-- ==== Proof.RowBlocks.lean ====
/-
  A matrix product taken a block of rows at a time.

  Write  (X · W)(r, j) = ∑ q < K, X (r, q) · W (q, j)  for an [n, K] array X and a [K, c] array W over the extended
  reals. Entry (r, j) reads row r of X and column j of W and nothing else. So if Xb is a block of b consecutive rows of
  X (row y of Xb is row r of X) and Wb is W itself, then entry (y, j) of Xb · Wb is entry (r, j) of X · W: the product
  computed one block of rows at a time is the product of the whole arrays. No algebraic law is used beyond reading the
  same K terms in the same order, so nothing here asks the entries to be finite.
-/
import proofs.«418678_j36361193128467_3_alg».proof.Proof.LibRowProducts

noncomputable section

open scoped BigOperators

namespace Cert.RowBlocks

open Idealize.ShloMosaic Idealize.ShloMosaic.ValueIdx Cert.Lib.RowProducts

variable {n K c : Nat}

/-- The product of an [n, K] array with a [K, c] array, entry by entry:  ∑ q < K, X (r, q) · W (q, j). -/
def rowProd (X : FVec Ideal ⟨2, ![n, K]⟩ .f32) (W : FVec Ideal ⟨2, ![K, c]⟩ .f32) : FVec Ideal ⟨2, ![n, c]⟩ .f32 :=
  fun i => ∑ q : Fin K, X (ix2 (i 0) q) * W (ix2 q (i 1))

/-- The host's `dot_general` with plain matrix-product dimension numbers is that product. -/
theorem dotGeneral_eq {d : DotDims ⟨2, ![n, K]⟩ ⟨2, ![K, c]⟩ ⟨2, ![n, c]⟩} (h : Plain d)
    (prec : Option ContractPrecision) (l : FVec Ideal ⟨2, ![n, K]⟩ .f32) (w : FVec Ideal ⟨2, ![K, c]⟩ .f32) :
    Host.dotGeneral (F := Ideal) d prec l w = rowProd l w :=
  funext fun j => h.dotGeneral_apply prec l w j

/-- Entry (y, j) of the product of a block of rows: if row `y 0` of the block `Xb` is row `i 0` of `X`, and column
    `y 1` of `Wb` is column `i 1` of `W`, the accumulate-into-zero matrix product of the block at `y` is the whole
    product at `i`. -/
theorem matmul_block {b : Nat} {d : DotDims ⟨2, ![b, K]⟩ ⟨2, ![K, c]⟩ ⟨2, ![b, c]⟩} (h : Plain d)
    (prec : Option ContractPrecision)
    (X : FVec Ideal ⟨2, ![n, K]⟩ .f32) (W : FVec Ideal ⟨2, ![K, c]⟩ .f32)
    (Xb : FVec Ideal ⟨2, ![b, K]⟩ .f32) (Wb : FVec Ideal ⟨2, ![K, c]⟩ .f32)
    (i : (⟨2, ![n, c]⟩ : Shape).Idx) (y : (⟨2, ![b, c]⟩ : Shape).Idx)
    (hX : ∀ q : Fin K, Xb (ix2 (y 0) q) = X (ix2 (i 0) q))
    (hW : ∀ q : Fin K, Wb (ix2 q (y 1)) = W (ix2 q (i 1))) :
    matmul (F := Ideal) d prec Xb Wb (constant ⟨2, ![b, c]⟩ .f32 0x00000000#32) y = rowProd X W i := by
  rw [h.matmul_zero_apply prec Xb Wb y]
  unfold rowProd
  exact Finset.sum_congr rfl fun q _ => by rw [hX q, hW q]

end Cert.RowBlocks

end
-- ==== Proof.Region0.lean ====
/-
  The first matrix product: what the first launch leaves in its output array.

  The launch walks 50 grid points. Point t fetches rows 2000·t … 2000·t + 1999 of the [100000, 1022] left operand and
  the whole [1022, 10] right operand, multiplies them into a zero accumulator, and writes the [2000, 10] result back as
  rows 2000·t … 2000·t + 1999 of the [100000, 10] output. Entry (r, j) of the output is therefore written by point
  r / 2000, and what it writes there is  ∑ q < 1022, X (r, q) · W (q, j): the product of the whole arrays, entry by
  entry. The 50 row blocks tile the output, so after the launch the output array IS that product.
-/
import proofs.«418678_j36361193128467_3_alg».proof.Proof.Gen.KernelIdeal.Frame
import proofs.«418678_j36361193128467_3_alg».proof.Proof.RowBlocks
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx Cert.RowBlocks Cert.Lib.RowProducts
open Idealize.ShloMosaic.Pipeline (Dat)

/- The buffer contents when the launch is entered. -/
variable (V : (c : Dev nD) → (b : Ref sig .tc) → Buf (Elt Ideal) ((c : Thread nD τ).loc b))

/-- The left operand as the launch finds it. -/
abbrev lhs (c : Dev nD) : FVec Ideal S100000x1022 .f32 := V c main_arg0
/-- The right operand as the launch finds it. -/
abbrev rhs (c : Dev nD) : FVec Ideal S1022x10 .f32 := V c main_arg2

theorem origin : (![0, 0] : Fin 2 → Nat) = fun _ => 0 := funext fun a => by fin_cases a <;> rfl

/-- The body's contraction is a plain matrix product: left axis 1 against right axis 0, nothing batched. -/
theorem plain : Plain dot_S2000x1022_S1022x10_S2000x10_1_0_0_1_n_n := ⟨rfl, rfl, rfl, rfl, rfl, rfl⟩

/-- The block indices, decided over the 50 points: the left operand's and the output's row block is the point itself
    and their column block 0; the right operand's block is always (0, 0). -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (rowProd (lhs V c) (rhs V c)) := by
  show (cfg0.win 2).cut (grid0.coords t) ((dat0 V c).after 2 t) = _
  rw [after0_2]
  unfold out0_2
  rw [View.canon_unit_zero origin]
  simp only [View.ld_unit_zero (S := S2000x1022) origin, View.ld_unit_zero (S := S1022x10) origin]
  obtain ⟨e0, e1, e2, e3, e4, e5⟩ := block_indices t
  funext j
  show matmul (F := Ideal) dot_S2000x1022_S1022x10_S2000x10_1_0_0_1_n_n none (iblk0 V c 0 t) (iblk0 V c 1 t)
      (constant S2000x10 .f32 0x00000000#32) j
    = rowProd (lhs V c) (rhs V c) (((cfg0.win 2).blk t).view.emb j)
  refine matmul_block plain none (lhs V c) (rhs V c) (iblk0 V c 0 t) (iblk0 V c 1 t)
    (((cfg0.win 2).blk t).view.emb j) j ?_ ?_
  · intro q
    have h : ((cfg0.win 0).blk t).view.emb (ix2 (j 0) q) = ix2 ((((cfg0.win 2).blk t).view.emb j) 0) q := by
      funext a; apply Fin.ext
      match a with
      | ⟨0, _⟩ =>
        show win0_0.index t (0 : Fin 2) * 2000 + 1 * (j 0).val = win0_2.index t (0 : Fin 2) * 2000 + 1 * (j 0).val
        omega
      | ⟨1, _⟩ =>
        show win0_0.index t (1 : Fin 2) * 1022 + 1 * q.val = q.val
        omega
    exact congrArg (lhs V c) h
  · intro q
    have h : ((cfg0.win 1).blk t).view.emb (ix2 q (j 1)) = ix2 q ((((cfg0.win 2).blk t).view.emb j) 1) := by
      funext a; apply Fin.ext
      match a with
      | ⟨0, _⟩ =>
        show win0_1.index t (0 : Fin 2) * 1022 + 1 * q.val = q.val
        omega
      | ⟨1, _⟩ =>
        show win0_1.index t (1 : Fin 2) * 10 + 1 * (j 1).val = win0_2.index t (1 : Fin 2) * 10 + 1 * (j 1).val
        omega
    exact congrArg (rhs V c) h

/-- An index of the output lies in point `t`'s block iff each coordinate lies in the block's range on its axis. -/
theorem mem_block (t : Fin cfg0.N) (i : S100000x10.Idx) :
    i ∈ ((cfg0.win 2).blk t).view.set ↔ ∀ a : Fin 2, win0_2.index t a * S2000x10.size a ≤ (i a).val
      ∧ (i a).val < win0_2.index t a * S2000x10.size a + S2000x10.size a := by
  show i ∈ ((View.whole main_v11).slice (win0_2.rect t)).set ↔ _
  rw [View.set_slice_whole, Rect.mem_set_unit]
  exact Iff.rfl

/-- The 50 row blocks tile the output: row r lies in the block of point r / 2000. -/
theorem cover (i : S100000x10.Idx) :
    ∃ t : Fin cfg0.N, (cfg0.win 2).flush t = true ∧ i ∈ ((cfg0.win 2).blk t).view.set := by
  have hi0 : (i 0).val < 100000 := (i 0).isLt
  have hi1 : (i 1).val < 10 := (i 1).isLt
  have hN : (i 0).val / 2000 < cfg0.N := by show _ < grid0.N; rw [N_0]; omega
  obtain ⟨-, -, -, -, e4, e5⟩ := block_indices ⟨(i 0).val / 2000, hN⟩
  have e4' : win0_2.index ⟨(i 0).val / 2000, hN⟩ (0 : Fin 2) = (i 0).val / 2000 := e4
  refine ⟨⟨(i 0).val / 2000, hN⟩, flush0_2 _, ?_⟩
  rw [mem_block]
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    omega
  | ⟨1, _⟩ =>
    show win0_2.index ⟨(i 0).val / 2000, hN⟩ (1 : Fin 2) * 10 ≤ (i 1).val
      ∧ (i 1).val < win0_2.index ⟨(i 0).val / 2000, hN⟩ (1 : Fin 2) * 10 + 10
    omega

/-- After the launch the output array is the product of the arrays the launch found. -/
theorem out_arr (c : Dev nD) : (dat0 V c).arrAt 2 cfg0.N = rowProd (lhs V c) (rhs V c) :=
  (dat0 V c).arrAt_eq_of_cover 2 (rowProd (lhs V c) (rhs V c)) (fun t _ => flushed_eq V c t) cover

end Cert.KernelIdeal.Region0

end
-- ==== Proof.Region1.lean ====
/-
  The second matrix product: what the second launch leaves in its output array.

  The launch walks 10 grid points. Point t fetches rows 10000·t … 10000·t + 9999 of the [100000, 10] left operand and
  the whole [10, 10] right operand, multiplies them into a zero accumulator (the body first re-labels the left block
  by a shape cast to its own shape, the identity), and writes the [10000, 10] result back as rows 10000·t … 10000·t + 9999
  of the [100000, 10] output. Entry (r, j) of the output is therefore written by point r / 10000, and what it writes there
  is  ∑ q < 10, X (r, q) · W (q, j). The 10 row blocks tile the output, so after the launch the output array IS the
  product of the whole arrays.
-/
import proofs.«418678_j36361193128467_3_alg».proof.Proof.Gen.KernelIdeal.Frame
import proofs.«418678_j36361193128467_3_alg».proof.Proof.RowBlocks
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx Cert.RowBlocks Cert.Lib.RowProducts
open Idealize.ShloMosaic.Pipeline (Dat)

/- The buffer contents when the launch is entered. -/
variable (V : (c : Dev nD) → (b : Ref sig .tc) → Buf (Elt Ideal) ((c : Thread nD τ).loc b))

/-- The left operand as the launch finds it. -/
abbrev lhs (c : Dev nD) : FVec Ideal S100000x10 .f32 := V c main_v49
/-- The right operand as the launch finds it. -/
abbrev rhs (c : Dev nD) : FVec Ideal S10x10 .f32 := V c main_arg4

theorem origin : (![0, 0] : Fin 2 → Nat) = fun _ => 0 := funext fun a => by fin_cases a <;> rfl

/-- The body's contraction is a plain matrix product: left axis 1 against right axis 0, nothing batched. -/
theorem plain : Plain dot_S10000x10_S10x10_S10000x10_1_0_0_1_n_n := ⟨rfl, rfl, rfl, rfl, rfl, rfl⟩

/-- The block indices, decided over the 10 points: the left operand's and the output's row block is the point itself
    and their column block 0; the right operand's block is always (0, 0). -/
theorem block_indices : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the whole product. -/
theorem flushed_eq (c : Dev nD) (t : Fin cfg1.N) :
    (dat1 V c).flushed 2 t = ((cfg1.win 2).blk t).view.read (Elt Ideal) (rowProd (lhs V c) (rhs V c)) := by
  show (cfg1.win 2).cut (grid1.coords t) ((dat1 V c).after 2 t) = _
  rw [after1_2]
  unfold out1_2
  rw [View.canon_unit_zero origin]
  simp only [View.ld_unit_zero (S := S10000x10) origin, View.ld_unit_zero (S := S10x10) origin]
  obtain ⟨e0, e1, e2, e3, e4, e5⟩ := block_indices t
  funext j
  show matmul (F := Ideal) dot_S10000x10_S10x10_S10000x10_1_0_0_1_n_n none
      (shapeCast S10000x10 (iblk1 V c 0 t) shapeCasts_S10000x10_S10000x10) (iblk1 V c 1 t)
      (constant S10000x10 .f32 0x00000000#32) j
    = rowProd (lhs V c) (rhs V c) (((cfg1.win 2).blk t).view.emb j)
  refine matmul_block plain none (lhs V c) (rhs V c)
    (shapeCast S10000x10 (iblk1 V c 0 t) shapeCasts_S10000x10_S10000x10) (iblk1 V c 1 t)
    (((cfg1.win 2).blk t).view.emb j) j ?_ ?_
  · intro q
    have h : ((cfg1.win 0).blk t).view.emb (ix2 (j 0) q) = ix2 ((((cfg1.win 2).blk t).view.emb j) 0) q := by
      funext a; apply Fin.ext
      match a with
      | ⟨0, _⟩ =>
        show win1_0.index t (0 : Fin 2) * 10000 + 1 * (j 0).val = win1_2.index t (0 : Fin 2) * 10000 + 1 * (j 0).val
        omega
      | ⟨1, _⟩ =>
        show win1_0.index t (1 : Fin 2) * 10 + 1 * q.val = q.val
        omega
    exact (congrFun (shapeCast_self (s := S10000x10) (iblk1 V c 0 t) shapeCasts_S10000x10_S10000x10)
      (ix2 (j 0) q)).trans (congrArg (lhs V c) h)
  · intro q
    have h : ((cfg1.win 1).blk t).view.emb (ix2 q (j 1)) = ix2 q ((((cfg1.win 2).blk t).view.emb j) 1) := by
      funext a; apply Fin.ext
      match a with
      | ⟨0, _⟩ =>
        show win1_1.index t (0 : Fin 2) * 10 + 1 * q.val = q.val
        omega
      | ⟨1, _⟩ =>
        show win1_1.index t (1 : Fin 2) * 10 + 1 * (j 1).val = win1_2.index t (1 : Fin 2) * 10 + 1 * (j 1).val
        omega
    exact congrArg (rhs V c) h

/-- An index of the output lies in point `t`'s block iff each coordinate lies in the block's range on its axis. -/
theorem mem_block (t : Fin cfg1.N) (i : S100000x10.Idx) :
    i ∈ ((cfg1.win 2).blk t).view.set ↔ ∀ a : Fin 2, win1_2.index t a * S10000x10.size a ≤ (i a).val
      ∧ (i a).val < win1_2.index t a * S10000x10.size a + S10000x10.size a := by
  show i ∈ ((View.whole main_v50).slice (win1_2.rect t)).set ↔ _
  rw [View.set_slice_whole, Rect.mem_set_unit]
  exact Iff.rfl

/-- The 10 row blocks tile the output: row r lies in the block of point r / 10000. -/
theorem cover (i : S100000x10.Idx) :
    ∃ t : Fin cfg1.N, (cfg1.win 2).flush t = true ∧ i ∈ ((cfg1.win 2).blk t).view.set := by
  have hi0 : (i 0).val < 100000 := (i 0).isLt
  have hi1 : (i 1).val < 10 := (i 1).isLt
  have hN : (i 0).val / 10000 < cfg1.N := by show _ < grid1.N; rw [N_1]; omega
  obtain ⟨-, -, -, -, e4, e5⟩ := block_indices ⟨(i 0).val / 10000, hN⟩
  have e4' : win1_2.index ⟨(i 0).val / 10000, hN⟩ (0 : Fin 2) = (i 0).val / 10000 := e4
  refine ⟨⟨(i 0).val / 10000, hN⟩, flush1_2 _, ?_⟩
  rw [mem_block]
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    omega
  | ⟨1, _⟩ =>
    show win1_2.index ⟨(i 0).val / 10000, hN⟩ (1 : Fin 2) * 10 ≤ (i 1).val
      ∧ (i 1).val < win1_2.index ⟨(i 0).val / 10000, hN⟩ (1 : Fin 2) * 10 + 10
    omega

/-- After the launch the output array is the product of the arrays the launch found. -/
theorem out_arr (c : Dev nD) : (dat1 V c).arrAt 2 cfg1.N = rowProd (lhs V c) (rhs V c) :=
  (dat1 V c).arrAt_eq_of_cover 2 (rowProd (lhs V c) (rhs V c)) (fun t _ => flushed_eq V c t) cover

end Cert.KernelIdeal.Region1

end
-- ==== Proof.Region2.lean ====
/-
  The third matrix product: what the third launch leaves in its output array.

  The launch walks 10 grid points. Point t fetches rows 10000·t … 10000·t + 9999 of the [100000, 10] left operand and
  the whole [10, 2] right operand, multiplies them into a zero accumulator (the body first re-labels the left block
  by a shape cast to its own shape, the identity), and writes the [10000, 2] result back as rows 10000·t … 10000·t + 9999
  of the [100000, 2] output. Entry (r, j) of the output is therefore written by point r / 10000, and what it writes there
  is  ∑ q < 10, X (r, q) · W (q, j). The 10 row blocks tile the output, so after the launch the output array IS the
  product of the whole arrays.
-/
import proofs.«418678_j36361193128467_3_alg».proof.Proof.Gen.KernelIdeal.Frame
import proofs.«418678_j36361193128467_3_alg».proof.Proof.RowBlocks
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx Cert.RowBlocks Cert.Lib.RowProducts
open Idealize.ShloMosaic.Pipeline (Dat)

/- The buffer contents when the launch is entered. -/
variable (V : (c : Dev nD) → (b : Ref sig .tc) → Buf (Elt Ideal) ((c : Thread nD τ).loc b))

/-- The left operand as the launch finds it. -/
abbrev lhs (c : Dev nD) : FVec Ideal S100000x10 .f32 := V c main_v88
/-- The right operand as the launch finds it. -/
abbrev rhs (c : Dev nD) : FVec Ideal S10x2 .f32 := V c main_arg6

theorem origin : (![0, 0] : Fin 2 → Nat) = fun _ => 0 := funext fun a => by fin_cases a <;> rfl

/-- The body's contraction is a plain matrix product: left axis 1 against right axis 0, nothing batched. -/
theorem plain : Plain dot_S10000x10_S10x2_S10000x2_1_0_0_1_n_n := ⟨rfl, rfl, rfl, rfl, rfl, rfl⟩

/-- The block indices, decided over the 10 points: the left operand's and the output's row block is the point itself
    and their column block 0; the right operand's block is always (0, 0). -/
theorem block_indices : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the whole product. -/
theorem flushed_eq (c : Dev nD) (t : Fin cfg2.N) :
    (dat2 V c).flushed 2 t = ((cfg2.win 2).blk t).view.read (Elt Ideal) (rowProd (lhs V c) (rhs V c)) := by
  show (cfg2.win 2).cut (grid2.coords t) ((dat2 V c).after 2 t) = _
  rw [after2_2]
  unfold out2_2
  rw [View.canon_unit_zero origin]
  simp only [View.ld_unit_zero (S := S10000x10) origin, View.ld_unit_zero (S := S10x2) origin]
  obtain ⟨e0, e1, e2, e3, e4, e5⟩ := block_indices t
  funext j
  show matmul (F := Ideal) dot_S10000x10_S10x2_S10000x2_1_0_0_1_n_n none
      (shapeCast S10000x10 (iblk2 V c 0 t) shapeCasts_S10000x10_S10000x10) (iblk2 V c 1 t)
      (constant S10000x2 .f32 0x00000000#32) j
    = rowProd (lhs V c) (rhs V c) (((cfg2.win 2).blk t).view.emb j)
  refine matmul_block plain none (lhs V c) (rhs V c)
    (shapeCast S10000x10 (iblk2 V c 0 t) shapeCasts_S10000x10_S10000x10) (iblk2 V c 1 t)
    (((cfg2.win 2).blk t).view.emb j) j ?_ ?_
  · intro q
    have h : ((cfg2.win 0).blk t).view.emb (ix2 (j 0) q) = ix2 ((((cfg2.win 2).blk t).view.emb j) 0) q := by
      funext a; apply Fin.ext
      match a with
      | ⟨0, _⟩ =>
        show win2_0.index t (0 : Fin 2) * 10000 + 1 * (j 0).val = win2_2.index t (0 : Fin 2) * 10000 + 1 * (j 0).val
        omega
      | ⟨1, _⟩ =>
        show win2_0.index t (1 : Fin 2) * 10 + 1 * q.val = q.val
        omega
    exact (congrFun (shapeCast_self (s := S10000x10) (iblk2 V c 0 t) shapeCasts_S10000x10_S10000x10)
      (ix2 (j 0) q)).trans (congrArg (lhs V c) h)
  · intro q
    have h : ((cfg2.win 1).blk t).view.emb (ix2 q (j 1)) = ix2 q ((((cfg2.win 2).blk t).view.emb j) 1) := by
      funext a; apply Fin.ext
      match a with
      | ⟨0, _⟩ =>
        show win2_1.index t (0 : Fin 2) * 10 + 1 * q.val = q.val
        omega
      | ⟨1, _⟩ =>
        show win2_1.index t (1 : Fin 2) * 2 + 1 * (j 1).val = win2_2.index t (1 : Fin 2) * 2 + 1 * (j 1).val
        omega
    exact congrArg (rhs V c) h

/-- An index of the output lies in point `t`'s block iff each coordinate lies in the block's range on its axis. -/
theorem mem_block (t : Fin cfg2.N) (i : S100000x2.Idx) :
    i ∈ ((cfg2.win 2).blk t).view.set ↔ ∀ a : Fin 2, win2_2.index t a * S10000x2.size a ≤ (i a).val
      ∧ (i a).val < win2_2.index t a * S10000x2.size a + S10000x2.size a := by
  show i ∈ ((View.whole main_v89).slice (win2_2.rect t)).set ↔ _
  rw [View.set_slice_whole, Rect.mem_set_unit]
  exact Iff.rfl

/-- The 10 row blocks tile the output: row r lies in the block of point r / 10000. -/
theorem cover (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  have hN : (i 0).val / 10000 < cfg2.N := by show _ < grid2.N; rw [N_2]; omega
  obtain ⟨-, -, -, -, e4, e5⟩ := block_indices ⟨(i 0).val / 10000, hN⟩
  have e4' : win2_2.index ⟨(i 0).val / 10000, hN⟩ (0 : Fin 2) = (i 0).val / 10000 := e4
  refine ⟨⟨(i 0).val / 10000, hN⟩, flush2_2 _, ?_⟩
  rw [mem_block]
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    omega
  | ⟨1, _⟩ =>
    show win2_2.index ⟨(i 0).val / 10000, hN⟩ (1 : Fin 2) * 2 ≤ (i 1).val
      ∧ (i 1).val < win2_2.index ⟨(i 0).val / 10000, hN⟩ (1 : Fin 2) * 2 + 2
    omega

/-- After the launch the output array is the product of the arrays the launch found. -/
theorem out_arr (c : Dev nD) : (dat2 V c).arrAt 2 cfg2.N = rowProd (lhs V c) (rhs V c) :=
  (dat2 V c).arrAt_eq_of_cover 2 (rowProd (lhs V c) (rhs V c)) (fun t _ => flushed_eq V c t) cover

end Cert.KernelIdeal.Region2

end
-- ==== Proof.Bridge.lean ====
/-
  The launches' outputs at the ideal values, and with them the result.

  At the ideal values a launch's output array is the product  ∑ q, X (r, q) · W (q, j)  of the arrays it finds (the
  region modules), and the host's `dot_general` of the same two arrays is that same sum. So each launch leaves exactly
  what the reference's `dot_general` computes, provided the launch's operands are the reference's operands: for the first
  launch they are two arguments; for the second and third, an argument and the rectified array of the stretch before,
  which the fold module identifies with the reference's once the previous launch is settled. Going down the program in
  order, each launch discharges the hypothesis the next stretch needs, and the last stretch ends at the reference's
  result.
-/
import proofs.«418678_j36361193128467_3_alg».proof.Proof.Fold
import proofs.«418678_j36361193128467_3_alg».proof.Proof.Region0
import proofs.«418678_j36361193128467_3_alg».proof.Proof.Region1
import proofs.«418678_j36361193128467_3_alg».proof.Proof.Region2

noncomputable section

namespace Cert.KernelIdeal.Bridge

open Cert.KernelIdeal Cert.KernelIdeal.Gen Idealize.ShloMosaic Idealize.ShloMosaic.TcCoe Idealize.SL.Sem
open Cert.RowBlocks Cert.Lib.RowProducts Cert.KernelIdeal.Fold

variable (m : (ℓ : Loc nD τ sig) → Buf (Elt Ideal) ℓ) (ρ : Dev nD → PrngReg) (c : Dev nD)

/-- The reference's three contractions are plain matrix products. -/
theorem plain0 : Plain Cert.ReferenceIdeal.dot_S100000x1022_S1022x10_S100000x10_1_0_0_1_n_n := ⟨rfl, rfl, rfl, rfl, rfl, rfl⟩
theorem plain1 : Plain Cert.ReferenceIdeal.dot_S100000x10_S10x10_S100000x10_1_0_0_1_n_n := ⟨rfl, rfl, rfl, rfl, rfl, rfl⟩
theorem plain2 : Plain Cert.ReferenceIdeal.dot_S100000x10_S10x2_S100000x2_1_0_0_1_n_n := ⟨rfl, rfl, rfl, rfl, rfl, rfl⟩

/-- The first launch leaves x · W1, the reference's first `dot_general`. -/
theorem launch0 : W2 m ρ c (Proc.devRef .tc main_v11) = Cert.ReferenceIdeal.ReadP.val_main_v11 (a0 m c) (a2 m c) := by
  refine (W2_arr m ρ c 2).trans ((Region0.out_arr (V1 m ρ) c).trans ?_)
  have e0 : Region0.lhs (V1 m ρ) c = a0 m c := w1_arg0 m ρ c
  have e1 : Region0.rhs (V1 m ρ) c = a2 m c := w1_arg2 m ρ c
  rw [e0, e1]
  exact (dotGeneral_eq plain0 none (a0 m c) (a2 m c)).symm

/-- The second launch leaves (the first rectified array) · W2, the reference's second `dot_general`. -/
theorem launch1 : W4 m ρ c (Proc.devRef .tc main_v50) = Cert.ReferenceIdeal.ReadP.val_main_v49 (a0 m c) (a1 m c) (a2 m c) (a3 m c) (a4 m c) := by
  refine (W4_arr m ρ c 2).trans ((Region1.out_arr (V3 m ρ) c).trans ?_)
  have e0 : Region1.lhs (V3 m ρ) c = Cert.ReferenceIdeal.ReadP.val_main_v48 (a0 m c) (a1 m c) (a2 m c) (a3 m c) := rectified1 m ρ c (launch0 m ρ c)
  have e1 : Region1.rhs (V3 m ρ) c = a4 m c := w3_arg4 m ρ c
  rw [e0, e1]
  exact (dotGeneral_eq plain1 none (Cert.ReferenceIdeal.ReadP.val_main_v48 (a0 m c) (a1 m c) (a2 m c) (a3 m c)) (a4 m c)).symm

/-- The third launch leaves (the second rectified array) · W3, the reference's third `dot_general`. -/
theorem launch2 : W6 m ρ c (Proc.devRef .tc main_v89) = Cert.ReferenceIdeal.ReadP.val_main_v87 (a0 m c) (a1 m c) (a2 m c) (a3 m c) (a4 m c) (a5 m c) (a6 m c) := by
  refine (W6_arr m ρ c 2).trans ((Region2.out_arr (V5 m ρ) c).trans ?_)
  have e0 : Region2.lhs (V5 m ρ) c = Cert.ReferenceIdeal.ReadP.val_main_v86 (a0 m c) (a1 m c) (a2 m c) (a3 m c) (a4 m c) (a5 m c) := rectified2 m ρ c (launch1 m ρ c)
  have e1 : Region2.rhs (V5 m ρ) c = a6 m c := w5_arg6 m ρ c
  rw [e0, e1]
  exact (dotGeneral_eq plain2 none (Cert.ReferenceIdeal.ReadP.val_main_v86 (a0 m c) (a1 m c) (a2 m c) (a3 m c) (a4 m c) (a5 m c)) (a6 m c)).symm

/-- The result buffer after the run holds the reference's result of the same arguments. -/
theorem result_eq : W8 m ρ c (Proc.devRef .tc main_v126) = Cert.ReferenceIdeal.ReadP.val_main_v124 (a0 m c) (a1 m c) (a2 m c) (a3 m c) (a4 m c) (a5 m c) (a6 m c) (a7 m c) :=
  result m ρ c (launch2 m ρ c)

end Cert.KernelIdeal.Bridge

end
-- ==== Proof.lean ====
/-
  The certificate: a three-layer graph convolution whose dense products run as row-tiled launches, against the same
  network written with plain matrix products.

  Both programs compute, for node features x [100000, 1022], an edge list (source row, destination row) and three
  weight/bias pairs:  d = (in-degree + 1)^(-1/2);  for each layer  h ↦ scatter-add over edges of  (h·W)[src] · d[src] · d[dst]
  into the destination rows, plus (h·W) · d², plus the bias;  a rectifier after the first two layers;  a row-wise
  log-softmax at the end. The only difference is HOW  h·W  is computed: the reference calls `dot_general` on the whole
  arrays, this program launches a kernel that multiplies a block of rows at a time (2000 rows for the first layer, 10000
  for the other two) into a zero accumulator and writes the block back. Entry (r, j) of a product reads row r of the left
  operand and column j of the right one and nothing else, so the blocks of the product are the products of the blocks
  (Proof/RowBlocks.lean, Proof/Region0.lean … Region2.lean); every other operation is the same on both sides and is
  never opened (Proof/Fold.lean, Proof/Bridge.lean). No algebraic law is needed, so the finiteness of the inputs is not
  used. The three frames are the generated ones; the ideal pass rewrote nothing, so `preserves` is `True`.
-/
import proofs.«418678_j36361193128467_3_alg».proof.Defs
import proofs.«418678_j36361193128467_3_alg».proof.Proof.Gen.Kernel
import proofs.«418678_j36361193128467_3_alg».proof.Proof.Gen.Kernel.Frame
import proofs.«418678_j36361193128467_3_alg».proof.Proof.Gen.KernelIdeal
import proofs.«418678_j36361193128467_3_alg».proof.Proof.Gen.KernelIdeal.Frame
import proofs.«418678_j36361193128467_3_alg».proof.Proof.Gen.ReferenceIdeal
import proofs.«418678_j36361193128467_3_alg».proof.Proof.Gen.Pre_finite_inputs
import proofs.«418678_j36361193128467_3_alg».proof.Proof.RefRun
import proofs.«418678_j36361193128467_3_alg».proof.Proof.RefRead
import proofs.«418678_j36361193128467_3_alg».proof.Proof.KernelRun
import proofs.«418678_j36361193128467_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result buffer at the reference's staged value of the launch arguments, which agree. -/
theorem algebraic : Cert.algebraic_KernelIdeal_ReferenceIdeal := by
  intro m ρ m' ρ' _ hagree
  refine ⟨fun c => Cert.ReferenceIdeal.ReadP.val_main_v124 (F := Ideal)
      (Cert.KernelIdeal.Fold.a0 m c) (Cert.KernelIdeal.Fold.a1 m c) (Cert.KernelIdeal.Fold.a2 m c)
      (Cert.KernelIdeal.Fold.a3 m c) (Cert.KernelIdeal.Fold.a4 m c) (Cert.KernelIdeal.Fold.a5 m c)
      (Cert.KernelIdeal.Fold.a6 m c) (Cert.KernelIdeal.Fold.a7 m c), ?_, ?_⟩
  · exact (θ_run Cert.KernelIdeal.defs _ _).mono
      (fun r h c => ⟨(h c).1.trans (Cert.KernelIdeal.Bridge.result_eq m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v124_eq, h0, h1, h2, h3, h4, h5, h6, h7]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
